-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x3072 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  main_v3
-- ==== Kernel.lean ====
abbrev S4096x3072 : Shape := ⟨2, ![4096, 3072]⟩
abbrev S2x1x3072 : Shape := ⟨3, ![2, 1, 3072]⟩
abbrev S2x1x1 : Shape := ⟨3, ![2, 1, 1]⟩
abbrev S256x3072 : Shape := ⟨2, ![256, 3072]⟩
abbrev S1x1x3072 : Shape := ⟨3, ![1, 1, 3072]⟩
abbrev S1x1x1 : Shape := ⟨3, ![1, 1, 1]⟩
abbrev S3072 : Shape := ⟨1, ![3072]⟩
abbrev S1x3072 : Shape := ⟨2, ![1, 3072]⟩
abbrev S1x256x3072 : Shape := ⟨3, ![1, 256, 3072]⟩
abbrev S1 : Shape := ⟨1, ![1]⟩
abbrev S_ : Shape := ⟨0, ![]⟩

abbrev nBuf : Space → Nat
  | .hbm => 14
  | .vmem => 6
  | .smem => 0
  | _ => 0

abbrev bufTy : (tb : Table) → Fin (tcTables nBuf tb) → BufTy
  | .hbm, ⟨0, _⟩ => ⟨S4096x3072, .f32⟩
  | .hbm, ⟨1, _⟩ => ⟨S2x1x3072, .f32⟩
  | .hbm, ⟨2, _⟩ => ⟨S2x1x1, .f32⟩
  | .hbm, ⟨3, _⟩ => ⟨S_, .f32⟩
  | .hbm, ⟨4, _⟩ => ⟨S1x3072, .f32⟩
  | .hbm, ⟨5, _⟩ => ⟨S3072, .f32⟩
  | .hbm, ⟨6, _⟩ => ⟨S_, .f32⟩
  | .hbm, ⟨7, _⟩ => ⟨S_, .f32⟩
  | .hbm, ⟨8, _⟩ => ⟨S3072, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S256x3072, .f32⟩
  | .local _ .vmem, ⟨1, _⟩ => ⟨S256x3072, .f32⟩
  | .local _ .vmem, ⟨2, _⟩ => ⟨S1x1x3072, .f32⟩
  | .local _ .vmem, ⟨3, _⟩ => ⟨S1x1x3072, .f32⟩
  | .local _ .vmem, ⟨4, _⟩ => ⟨S1x1x1, .f32⟩
  | .local _ .vmem, ⟨5, _⟩ => ⟨S1x1x1, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x3072_S1x1x3072_0_0_0 : ∀ a, (![0, 0, 0] : Fin 3 → Nat) a + S1x1x3072.size a ≤ S1x1x3072.size a
  h_S1x1x3072 : 0 < S1x1x3072.numel
  inb_S1x1x1_S1x1x1_0_0_0 : ∀ a, (![0, 0, 0] : Fin 3 → Nat) a + S1x1x1.size a ≤ S1x1x1.size a
  h_S1x1x1 : 0 < S1x1x1.numel
  inb_S256x3072_S256x3072_0_0 : ∀ a, (![0, 0] : Fin 2 → Nat) a + S256x3072.size a ≤ S256x3072.size a
  h_S256x3072 : 0 < S256x3072.numel
  shapeCasts_S1x1x3072_S1x1x3072 : S1x1x3072.ShapeCasts S1x1x3072
  reduces_S256x3072_S3072 : S256x3072.Reduces [0] S3072
  shapeCasts_S3072_S1x3072 : S3072.ShapeCasts S1x3072
  shapeCasts_S1x3072_S1x1x3072 : S1x3072.ShapeCasts S1x1x3072
  shapeCasts_S1x1x1_S1x1x1 : S1x1x1.ShapeCasts S1x1x1
  shapeCasts_S256x3072_S1x256x3072 : S256x3072.ShapeCasts S1x256x3072
  reduces_S1x256x3072_S1 : S1x256x3072.Reduces [1, 2] S1
  shapeCasts_S1_S1x1x1 : S1.ShapeCasts S1x1x1
  inpos_S1x1x1_p0_0_0 : ∀ a, (![0, 0, 0] : Fin 3 → Nat) a < S1x1x1.size a
  reducesTo_S2x1x3072_S1x3072_d0 : S2x1x3072.ReducesTo [0] S1x3072
  h_S_ : 0 < S_.numel
  shapeCasts_S1x3072_S3072 : S1x3072.ShapeCasts S3072
  reducesTo_S2x1x1_S_d0_1_2 : S2x1x1.ReducesTo [0, 1, 2] S_
  reducesTo_S3072_S_d0 : S3072.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S4096x3072.size a
  hwx0_0 : ∀ i : grid0.Coords, EltTy.bits .f32 = 32 ∨ (Rect.block (s := S4096x3072) S256x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3072.size a ≤ S2x1x3072.size a
  hwx0_1 : ∀ i : grid0.Coords, EltTy.bits .f32 = 32 ∨ (Rect.block (s := S2x1x3072) S1x1x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x3072.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x3072 : Shape := ⟨2, ![4096, 3072]⟩
abbrev S3072x4096 : Shape := ⟨2, ![3072, 4096]⟩
abbrev S4096x4096 : Shape := ⟨2, ![4096, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S3072x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S_, .f32⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S_, .f32⟩
  | .hbm, ⟨20, _⟩ => ⟨S_, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_c : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_call0_v6 : Ref sig .tc := ⟨.hbm, 17, rfl⟩
abbrev main_call0_cst_0 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]

class Facts₀ : Prop where
  transposes_S4096x3072_S3072x4096_1_0 : S4096x3072.Transposes [1, 0] S3072x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  dot_S4096x3072_S3072x4096_S4096x4096_1_0_0_1_n_n_wf : DotDims.WF S4096x3072 S3072x4096 S4096x4096 [1] [0] [0] [1] [] []

variable [Facts₀]

def dot_S4096x3072_S3072x4096_S4096x4096_1_0_0_1_n_n : DotDims S4096x3072 S3072x4096 S4096x4096 where
  lhsContracting := [1]
  rhsContracting := [0]
  lhsNonContracting := [0]
  rhsNonContracting := [1]
  lhsBatch := []
  rhsBatch := []
  wf := dot_S4096x3072_S3072x4096_S4096x4096_1_0_0_1_n_n_wf

class Facts : Prop extends Facts₀ where

variable [Facts]
-- ==== Proof.KernelPieces.lean ====
/-
  The kernel's two accumulated outputs, one grid point at a time: what a point leaves in each output block, as a
  function of the block of `x` it reads and of what the point before left.
-/
import proofs.«428474_j18674517803011_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

/-! ## What one grid point leaves in the two accumulated outputs

The body keeps two running results in its output blocks: a row of 3072 column sums and one sum of fourth powers.  At
the first of a core's eight points it stores zeros first; at every point it reads the block back and stores it plus
this point's contribution.  So a point leaves `step (block of x) (what it found)`, with zeros for what it found at a
first point. -/

theorem hz3 : (![0, 0, 0] : Fin 3 → Nat) = fun _ => 0 := funext fun a => by fin_cases a <;> rfl
theorem hz2 : (![0, 0] : Fin 2 → Nat) = fun _ => 0 := funext fun a => by fin_cases a <;> rfl

/-- A later point: the row of column sums it found, plus this block's column sums of squares. -/
theorem out_B_1 (c : Dev nD) (i : grid0.Coords) (a2 : Memref sig .tc .vmem S256x3072 .f32) (h2 : a2.IsWhole)
    (a3 : Memref sig .tc .vmem S1x1x3072 .f32) (h3 : a3.IsWhole) (a4 : Memref sig .tc .vmem S1x1x1 .f32) (h4 : a4.IsWhole)
    (hc : ¬cond0_0 i) (x : Vec F S256x3072 .f32) (xo1 : Vec F S1x1x3072 .f32) (xo2 : Vec F S1x1x1 .f32) :
    out0_B_1 c i a2 h2 a3 h3 a4 h4 hc x xo1 xo2 = k0_pay4 x xo1 := by
  unfold out0_B_1
  rw [View.read_writes_eq_canon _ _ _ (cover0_B_1 c i a2 h2 a3 h3 a4 h4 hc x xo1 xo2)]
  unfold kernelRun0_B
  dsimp only
  sl_unfold_words
  rw [View.canon_unit_zero hz3]
  simp only [View.readAt_eq_ld, h2.read_unread, h3.read_unread, View.ld_unit_zero (S := S256x3072) hz2,
    View.ld_unit_zero (S := S1x1x3072) hz3]

/-- A later point: the fourth-power sum it found, plus this block's. -/
theorem out_B_2 (c : Dev nD) (i : grid0.Coords) (a2 : Memref sig .tc .vmem S256x3072 .f32) (h2 : a2.IsWhole)
    (a3 : Memref sig .tc .vmem S1x1x3072 .f32) (h3 : a3.IsWhole) (a4 : Memref sig .tc .vmem S1x1x1 .f32) (h4 : a4.IsWhole)
    (hc : ¬cond0_0 i) (x : Vec F S256x3072 .f32) (xo1 : Vec F S1x1x3072 .f32) (xo2 : Vec F S1x1x1 .f32) :
    out0_B_2 c i a2 h2 a3 h3 a4 h4 hc x xo1 xo2 = k0_pay5 x xo2 := by
  unfold out0_B_2
  rw [View.read_writes_eq_canon _ _ _ (cover0_B_2 c i a2 h2 a3 h3 a4 h4 hc x xo1 xo2)]
  unfold kernelRun0_B
  dsimp only
  sl_unfold_words
  rw [View.canon_unit_zero hz3]
  simp only [View.readAt_eq_ld, h2.read_unread, h4.read_unread, View.ld_unit_zero (S := S256x3072) hz2,
    View.ld_unit_zero (S := S1x1x1) hz3]

/-- A first point: zeros stored and read back, plus this block's column sums of squares. -/
theorem out_A_1 (c : Dev nD) (i : grid0.Coords) (a2 : Memref sig .tc .vmem S256x3072 .f32) (h2 : a2.IsWhole)
    (a3 : Memref sig .tc .vmem S1x1x3072 .f32) (h3 : a3.IsWhole) (a4 : Memref sig .tc .vmem S1x1x1 .f32) (h4 : a4.IsWhole)
    (hc : cond0_0 i) (x : Vec F S256x3072 .f32) :
    out0_A_1 c i a2 h2 a3 h3 a4 h4 hc x = k0_pay4 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x1x3072) hz3, View.readCov_unit_zero (S := S1x1x3072) _ hz3]
  simp only [View.readAt_eq_ld, h2.read_unread, View.ld_unit_zero (S := S256x3072) hz2,
    View.ld_unit_zero (S := S1x1x3072) hz3]

/-- A first point: zero stored and read back, plus this block's sum of fourth powers. -/
theorem out_A_2 (c : Dev nD) (i : grid0.Coords) (a2 : Memref sig .tc .vmem S256x3072 .f32) (h2 : a2.IsWhole)
    (a3 : Memref sig .tc .vmem S1x1x3072 .f32) (h3 : a3.IsWhole) (a4 : Memref sig .tc .vmem S1x1x1 .f32) (h4 : a4.IsWhole)
    (hc : cond0_0 i) (x : Vec F S256x3072 .f32) :
    out0_A_2 c i a2 h2 a3 h3 a4 h4 hc x = k0_pay5 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x1x1) hz3, View.readCov_unit_zero (S := S1x1x1) _ hz3]
  simp only [View.readAt_eq_ld, h2.read_unread, View.ld_unit_zero (S := S256x3072) hz2,
    View.ld_unit_zero (S := S1x1x1) hz3]

end Cert.KernelIdeal.Value

end
-- ==== Proof.KernelTerms.lean ====
/-
  What the host lines after the kernel compute from its two partial results `O1` (two rows of 3072 column sums)
  and `O2` (two sums of fourth powers): add the two rows, square and sum the 3072 entries, take off the two
  fourth-power sums, divide by 3072.
-/
import proofs.«428474_j18674517803011_3_alg».proof.Proof.Gen.KernelIdeal

noncomputable section

namespace Cert.KernelIdeal.Terms

open Idealize.ShloMosaic Cert.KernelIdeal
open Cert.KernelIdeal.Facts₀

variable {F : FTy → Type} [FloatOps F]

/-- The two rows of column sums added, as a vector of 3072. -/
def colVec (O1 : FVec F S2x1x3072 .f32) : FVec F S3072 .f32 :=
  shapeCast S3072 (Host.reduceAdd O1 (constant S_ .f32 0x00000000#32) reducesTo_S2x1x3072_S1x3072_d0 h_S_) shapeCasts_S1x3072_S3072

/-- The host lines after the kernel, as one term of the kernel's two results. -/
def tailTerm (O1 : FVec F S2x1x3072 .f32) (O2 : FVec F S2x1x1 .f32) : FVec F S_ .f32 :=
  Host.divf
    (subf
      (Host.reduceAdd (mulf (colVec O1) (colVec O1)) (constant S_ .f32 0x00000000#32) reducesTo_S3072_S_d0 h_S_)
      (Host.reduceAdd O2 (constant S_ .f32 0x00000000#32) reducesTo_S2x1x1_S_d0_1_2 h_S_))
    (constant S_ .f32 0x45400000#32)

end Cert.KernelIdeal.Terms

end
-- ==== Proof.Spec.lean ====
/-
  The number both programs compute, over the extended reals.  For an array `X` of 4096 rows and 3072 columns write
  `Y = X²`, entry by entry.  The reference forms the Gram matrix `G = Y Yᵀ / 3072` and returns the sum of its
  off-diagonal entries, `∑ᵢⱼ Gᵢⱼ − ∑ᵢⱼ [i = j] Gᵢⱼ`.  The kernel never forms `G`: it returns
  `(∑_d (∑ᵢ Y_id)² − ∑ᵢ ∑_d Y_id²) / 3072`, the column sums of `Y` squared and summed, less the sum of the fourth
  powers.  The rows reach the kernel in 16 blocks of 256, eight to each of two partial results; `blockRow` and `pt`
  name a row by its block and a block by its partial result.
-/
import Idealize.ShloMosaic.PureOps.Ideal
import Idealize.ShloMosaic.Lib.ValueIdx

noncomputable section

namespace Cert.OrthReg

open Idealize.ShloMosaic
open scoped BigOperators

/-- The divisor both programs print: the f32 word of 3072. -/
abbrev dLit : EReal := Ideal.ofBits .f32 0x45400000#32

/-- An array of 4096 rows and 3072 columns, by row and column. -/
abbrev Mat : Type := Fin 4096 → Fin 3072 → EReal

/-- The square of an entry. -/
def sq (X : Mat) (i : Fin 4096) (d : Fin 3072) : EReal := X i d * X i d

/-- A column's sum of squares. -/
def colSum (X : Mat) (d : Fin 3072) : EReal := ∑ i, sq X i d

/-- The kernel's number. -/
def kForm (X : Mat) : EReal :=
  Ideal.div ((∑ d, colSum X d * colSum X d) - ∑ i, ∑ d, sq X i d * sq X i d) dLit

/-- An entry of the Gram matrix of the squares, divided by the number of columns. -/
def gram (X : Mat) (i j : Fin 4096) : EReal := Ideal.div (∑ d, sq X i d * sq X j d) dLit

/-- The reference's number: all entries of the Gram matrix, less its diagonal. -/
def rForm (X : Mat) : EReal := (∑ i, ∑ j, gram X i j) - ∑ i, ∑ j, if i = j then gram X i j else 0

/-- Block `c·8 + i` of the sixteen row blocks: the `i`-th of the eight that partial result `c` accumulates. -/
def pt (c : Fin 2) (i : Fin 8) : Fin 16 := ⟨8 * c.val + i.val, by have := c.isLt; have := i.isLt; omega⟩

/-- Row `r` of row block `t`. -/
def blockRow (t : Fin 16) (r : Fin 256) : Fin 4096 := ⟨256 * t.val + r.val, by have := t.isLt; have := r.isLt; omega⟩

end Cert.OrthReg

end
-- ==== Proof.KernelRead.lean ====
/-
  The kernel body's stored values and the host lines after it, read at an index over the extended reals.
-/
import proofs.«428474_j18674517803011_3_alg».proof.Proof.Gen.KernelIdeal.Skeleton
import proofs.«428474_j18674517803011_3_alg».proof.Proof.KernelTerms
import proofs.«428474_j18674517803011_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Read

open Idealize.ShloMosaic Idealize.ShloMosaic.ValueIdx Cert.KernelIdeal Cert.KernelIdeal.Gen Cert.KernelIdeal.Terms
open scoped BigOperators

/-- The reset stores zeros in the row of column sums. -/
theorem pay1_apply (y : S1x1x3072.Idx) : k0_pay1 (F := Ideal) y = 0 := by
  unfold k0_pay1
  rw [broadcast_apply]
  exact Ideal.ofBits_zero_f32

/-- The reset stores zero in the fourth-power sum. -/
theorem pay2_apply (y : S1x1x1.Idx) : k0_pay2 (F := Ideal) y = 0 := by
  unfold k0_pay2
  rw [broadcast_apply]
  exact Ideal.ofBits_zero_f32

/-- The index of the block that the sum over its rows reads at column `d` and row `k` is `(k, d)`. -/
theorem lift_rows (h : S256x3072.Reduces [0] S3072) (d : Fin 3072) (k : Fin 256) :
    h.lift (ix1 d) k = ix2 k d := by
  funext a
  match a with
  | ⟨0, _⟩ => exact Fin.ext rfl
  | ⟨1, _⟩ => exact Fin.ext rfl

/-- One step adds to column `d` of the running row the sum over the block's 256 rows of the squares in that column. -/
theorem pay4_apply (B : Vec Ideal S256x3072 .f32) (a : Vec Ideal S1x1x3072 .f32) (d : Fin 3072) :
    k0_pay4 (F := Ideal) B a (ix3 0 0 d) = a (ix3 0 0 d) + ∑ r : Fin 256, B (ix2 r d) * B (ix2 r d) := by
  unfold k0_pay4 k0_pay3
  rw [addf_apply, shapeCast_self]
  congr 1
  refine (shapeCast_ab_1ab_apply _ _ 0 0 d).trans ?_
  refine (shapeCast_a_1a_apply _ _ 0 d).trans ?_
  refine (Ideal.multiReduction_add_single _ _ _ _ _ (ix1 d)).trans ?_
  refine Finset.sum_congr rfl fun k _ => ?_
  have e : reduces_S256x3072_S3072.lift (ix1 d) k = ix2 k d := lift_rows _ d k
  exact congrArg (fun i => B i * B i) e

/-- An index set with a leading unit axis is the product of its other two coordinate ranges … -/
def idxEquiv3Unit {n1 n2 : Nat} : (⟨3, ![1, n1, n2]⟩ : Shape).Idx ≃ Fin n1 × Fin n2 where
  toFun i := (i 1, i 2)
  invFun p := ix3 (0 : Fin 1) p.1 p.2
  left_inv i := by
    funext a
    match a with
    | ⟨0, _⟩ => exact Subsingleton.elim (α := Fin 1) _ _
    | ⟨1, _⟩ => rfl
    | ⟨2, _⟩ => rfl
  right_inv _ := rfl

/-- … so a sum over it is the double sum over those two coordinates, the unit coordinate being 0. -/
theorem sum_idx3_unit {M : Type*} [AddCommMonoid M] {n1 n2 : Nat} (f : (⟨3, ![1, n1, n2]⟩ : Shape).Idx → M) :
    ∑ i, f i = ∑ a : Fin n1, ∑ b : Fin n2, f (ix3 (0 : Fin 1) a b) := by
  rw [← Equiv.sum_comp (idxEquiv3Unit (n1 := n1) (n2 := n2)).symm f, Fintype.sum_prod_type]
  rfl

/-- A one-element vector viewed as `[1, 1, 1]` reads its one element at every index. -/
theorem shapeCast_1_111_apply {α : Type} (x : S1.Idx → α) (h : S1.ShapeCasts S1x1x1) (j : S1x1x1.Idx) :
    shapeCast S1x1x1 x h j = x (ix1 (0 : Fin 1)) := by
  unfold shapeCast
  refine congrArg x ?_
  funext a
  match a with
  | ⟨0, _⟩ => exact Subsingleton.elim (α := Fin 1) _ _

/-- One step adds to the running fourth-power sum the block's sum of fourth powers. -/
theorem pay5_apply (B : Vec Ideal S256x3072 .f32) (a : Vec Ideal S1x1x1 .f32) :
    k0_pay5 (F := Ideal) B a (ix3 0 0 0)
      = a (ix3 0 0 0) + ∑ r : Fin 256, ∑ d : Fin 3072, (B (ix2 r d) * B (ix2 r d)) * (B (ix2 r d) * B (ix2 r d)) := by
  unfold k0_pay5 k0_pay3
  rw [addf_apply, shapeCast_self, broadcast_apply]
  congr 1
  unfold extractAt
  refine (shapeCast_1_111_apply _ _ _).trans ?_
  refine (Ideal.multiReduction_add_total _ _ _ (fun b => match b with | ⟨0, _⟩ => rfl) _ _ _).trans ?_
  refine (sum_idx3_unit _).trans ?_
  refine Finset.sum_congr rfl fun r _ => Finset.sum_congr rfl fun d _ => ?_
  exact shapeCast_ab_1ab_apply _ _ 0 r d

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An index set with two trailing unit axes is its first coordinate range … -/
def idxEquiv3Units {n : Nat} : (⟨3, ![n, 1, 1]⟩ : Shape).Idx ≃ Fin n where
  toFun i := i 0
  invFun a := ix3 a (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- … so a sum over it is the sum over that coordinate, the unit coordinates being 0. -/
theorem sum_idx3_units {M : Type*} [AddCommMonoid M] {n : Nat} (f : (⟨3, ![n, 1, 1]⟩ : Shape).Idx → M) :
    ∑ i, f i = ∑ a : Fin n, f (ix3 a (0 : Fin 1) (0 : Fin 1)) := by
  rw [← Equiv.sum_comp (idxEquiv3Units (n := n)).symm f]
  rfl

/-- The index of the two stacked rows that the sum over the stack reads at column `d` and row `c` is `(c, 0, d)`. -/
theorem lift_stack (h : S2x1x3072.Reduces [0] S1x3072) (d : Fin 3072) (c : Fin 2) :
    h.lift (ix2 (0 : Fin 1) d) c = ix3 c (0 : Fin 1) d := by
  funext a
  match a with
  | ⟨0, _⟩ => exact Fin.ext rfl
  | ⟨1, _⟩ => exact Fin.ext rfl
  | ⟨2, _⟩ => exact Fin.ext rfl

/-- The two rows added, read at column `d`: the sum of the two rows' entries there. -/
theorem colVec_apply (O1 : FVec Ideal S2x1x3072 .f32) (d : Fin 3072) :
    colVec (F := Ideal) O1 (ix1 d) = ∑ c : Fin 2, O1 (ix3 c 0 d) := by
  unfold colVec
  refine (shapeCast_1a_a_apply _ _ d).trans ?_
  show Ideal.hostReduceAdd reducesTo_S2x1x3072_S1x3072_d0 O1 (Ideal.ofBits .f32 0x00000000#32) (ix2 (0 : Fin 1) d) = _
  have hR : S2x1x3072.Reduces [0] S1x3072 := by decide
  rw [Ideal.hostReduceAdd_single _ hR, Ideal.ofBits_zero_f32, zero_add]
  refine Finset.sum_congr rfl fun c _ => ?_
  exact congrArg O1 (lift_stack hR d c)

/-- The host lines after the kernel, read: the two rows added column by column, squared and summed, less the two
    fourth-power sums, divided by 3072. -/
theorem tailTerm_apply (O1 : FVec Ideal S2x1x3072 .f32) (O2 : FVec Ideal S2x1x1 .f32) :
    tailTerm (F := Ideal) O1 O2 = fun _ =>
      Ideal.div ((∑ d : Fin 3072, (∑ c : Fin 2, O1 (ix3 c 0 d)) * (∑ c : Fin 2, O1 (ix3 c 0 d)))
        - ∑ c : Fin 2, O2 (ix3 c 0 0)) Cert.OrthReg.dLit := by
  funext j
  unfold tailTerm
  show Ideal.div
      (Ideal.hostReduceAdd reducesTo_S3072_S_d0 (mulf (colVec (F := Ideal) O1) (colVec (F := Ideal) O1))
          (Ideal.ofBits .f32 0x00000000#32) j
        - Ideal.hostReduceAdd reducesTo_S2x1x1_S_d0_1_2 O2 (Ideal.ofBits .f32 0x00000000#32) j)
      (Ideal.ofBits .f32 0x45400000#32) = _
  rw [Ideal.hostReduceAdd_total _ (fun b => b.elim0), Ideal.hostReduceAdd_total _ (fun b => b.elim0),
    Ideal.ofBits_zero_f32, zero_add, zero_add, sum_idx1, sum_idx3_units]
  have hcol : ∀ d : Fin 3072, mulf (colVec (F := Ideal) O1) (colVec (F := Ideal) O1) (ix1 d)
      = (∑ c : Fin 2, O1 (ix3 c 0 d)) * (∑ c : Fin 2, O1 (ix3 c 0 d)) := fun d => by
    rw [mulf_apply, colVec_apply]
  rw [Finset.sum_congr rfl fun d _ => hcol d]

end Cert.KernelIdeal.Read

end
-- ==== Proof.KernelChain.lean ====
/-
  The two accumulated outputs after every grid point.  Points 0..7 belong to the first partial result, 8..15 to the
  second; a point whose number is a multiple of 8 starts from zeros, every other point from what the point before
  left.  Over the extended reals the running row of column sums after point `n` is therefore, column by column, the
  sum over the blocks `8⌊n/8⌋ … n` of the block's column sum of squares, and the running scalar the sum over the same
  blocks of the block's sum of fourth powers.
-/
import proofs.«428474_j18674517803011_3_alg».proof.Proof.KernelPieces
import proofs.«428474_j18674517803011_3_alg».proof.Proof.KernelRead

noncomputable section

open Idealize.ShloMosaic Idealize.ShloMosaic.TcCoe Idealize.SL.Sem Idealize.ShloMosaic.ValueIdx
open Idealize.ShloMosaic.Pipeline (Dat)
open scoped BigOperators

namespace Cert.KernelIdeal.Value

open Cert.KernelIdeal Cert.KernelIdeal.Gen Cert.KernelIdeal.Read

section AnyValues

variable {F : FTy → Type} [FloatOps F]
variable (m : (ℓ : Loc nD τ sig) → Buf (Elt F) ℓ)

/-- The block of `x` that point `t` reads: rows `256 t … 256 t + 255`. -/
abbrev xblk (c : Dev nD) (t : Fin cfg0.N) : Vec F S256x3072 .f32 := iblk m c 0 t

/-- At a core's first point both outputs are one step from zeros. -/
theorem outsAt_first (c : Dev nD) (t : Fin cfg0.N) (h0 : t.val % 8 = 0) :
    outsAt0 m c t.val t.isLt = (k0_pay4 (xblk m c t) (k0_pay1 (F := F)), k0_pay5 (xblk m c t) (k0_pay2 (F := F))) := by
  rw [outsAt0_A m c t h0, out_A_1, out_A_2]

/-- At any other point both outputs are one step from what the point before left. -/
theorem outsAt_next (c : Dev nD) (t : Fin cfg0.N) (h0 : ¬t.val % 8 = 0) :
    outsAt0 m c t.val t.isLt
      = (k0_pay4 (xblk m c t) (outsAt0 m c (t.val - 1) (Nat.lt_of_le_of_lt (Nat.sub_le _ _) t.isLt)).1,
         k0_pay5 (xblk m c t) (outsAt0 m c (t.val - 1) (Nat.lt_of_le_of_lt (Nat.sub_le _ _) t.isLt)).2) := by
  rw [outsAt0_B m c t h0, out_B_1, out_B_2]

end AnyValues

section Reals

variable (m : (ℓ : Loc nD τ sig) → Buf (Elt Ideal) ℓ)

/-- The block point `n` reads, for any number `n` (zeros past the grid, never used). -/
def blkAt (c : Dev nD) (n : ℕ) : Vec Ideal S256x3072 .f32 :=
  if h : n < cfg0.N then xblk m c ⟨n, h⟩ else fun _ => 0

theorem blkAt_of_lt (c : Dev nD) (n : ℕ) (h : n < cfg0.N) : blkAt m c n = xblk m c ⟨n, h⟩ := dif_pos h

/-- A block's column sum of squares. -/
def rowsq (B : Vec Ideal S256x3072 .f32) (d : Fin 3072) : EReal := ∑ r : Fin 256, B (ix2 r d) * B (ix2 r d)

/-- A block's sum of fourth powers. -/
def quart (B : Vec Ideal S256x3072 .f32) : EReal :=
  ∑ r : Fin 256, ∑ d : Fin 3072, (B (ix2 r d) * B (ix2 r d)) * (B (ix2 r d) * B (ix2 r d))

/-- The running row of column sums after point `n`: the blocks since the core's first point, summed. -/
theorem acc1_eq (c : Dev nD) (d : Fin 3072) : ∀ (n : ℕ) (h : n < cfg0.N),
    (outsAt0 m c n h).1 (ix3 0 0 d) = ∑ j ∈ Finset.range (n % 8 + 1), rowsq (blkAt m c (8 * (n / 8) + j)) d := by
  intro n
  induction n with
  | zero =>
    intro h
    rw [show outsAt0 m c 0 h = _ from outsAt_first m c ⟨0, h⟩ rfl]
    dsimp only
    rw [pay4_apply, pay1_apply, zero_add]
    simp only [Nat.zero_mod, Nat.zero_div, Nat.mul_zero, Nat.zero_add, Finset.sum_range_one]
    rw [blkAt_of_lt m c 0 h]
    rfl
  | succ n ih =>
    intro h
    by_cases h0 : (n + 1) % 8 = 0
    · rw [show outsAt0 m c (n + 1) h = _ from outsAt_first m c ⟨n + 1, h⟩ h0]
      dsimp only
      rw [pay4_apply, pay1_apply, zero_add, h0]
      simp only [Nat.zero_add, Finset.sum_range_one, Nat.add_zero]
      rw [show 8 * ((n + 1) / 8) = n + 1 by omega, blkAt_of_lt m c (n + 1) h]
      rfl
    · rw [show outsAt0 m c (n + 1) h = _ from outsAt_next m c ⟨n + 1, h⟩ h0]
      dsimp only
      rw [pay4_apply]
      have ih' := ih (Nat.lt_of_succ_lt h)
      show (outsAt0 m c n _).1 (ix3 0 0 d) + _ = _
      rw [ih', show (n + 1) % 8 = n % 8 + 1 by omega, show (n + 1) / 8 = n / 8 by omega, Finset.sum_range_succ (n := n % 8 + 1)]
      rw [show 8 * (n / 8) + (n % 8 + 1) = n + 1 by omega, blkAt_of_lt m c (n + 1) h]
      rfl

/-- The running fourth-power sum after point `n`: the blocks since the core's first point, summed. -/
theorem acc2_eq (c : Dev nD) : ∀ (n : ℕ) (h : n < cfg0.N),
    (outsAt0 m c n h).2 (ix3 0 0 0) = ∑ j ∈ Finset.range (n % 8 + 1), quart (blkAt m c (8 * (n / 8) + j)) := by
  intro n
  induction n with
  | zero =>
    intro h
    rw [show outsAt0 m c 0 h = _ from outsAt_first m c ⟨0, h⟩ rfl]
    dsimp only
    rw [pay5_apply, pay2_apply, zero_add]
    simp only [Nat.zero_mod, Nat.zero_div, Nat.mul_zero, Nat.zero_add, Finset.sum_range_one]
    rw [blkAt_of_lt m c 0 h]
    rfl
  | succ n ih =>
    intro h
    by_cases h0 : (n + 1) % 8 = 0
    · rw [show outsAt0 m c (n + 1) h = _ from outsAt_first m c ⟨n + 1, h⟩ h0]
      dsimp only
      rw [pay5_apply, pay2_apply, zero_add, h0]
      simp only [Nat.zero_add, Finset.sum_range_one, Nat.add_zero]
      rw [show 8 * ((n + 1) / 8) = n + 1 by omega, blkAt_of_lt m c (n + 1) h]
      rfl
    · rw [show outsAt0 m c (n + 1) h = _ from outsAt_next m c ⟨n + 1, h⟩ h0]
      dsimp only
      rw [pay5_apply]
      have ih' := ih (Nat.lt_of_succ_lt h)
      show (outsAt0 m c n _).2 (ix3 0 0 0) + _ = _
      rw [ih', show (n + 1) % 8 = n % 8 + 1 by omega, show (n + 1) / 8 = n / 8 by omega, Finset.sum_range_succ (n := n % 8 + 1)]
      rw [show 8 * (n / 8) + (n % 8 + 1) = n + 1 by omega, blkAt_of_lt m c (n + 1) h]
      rfl

end Reals

end Cert.KernelIdeal.Value

end
-- ==== Proof.KernelFlush.lean ====
/-
  The two result arrays after the kernel.  Each has two blocks, one per core; block `k` is written back once, after
  point `8k + 7`, the last of that core's eight points.  So entry `(k, ·, ·)` of either array is what point
  `8k + 7` left in the output block.
-/
import proofs.«428474_j18674517803011_3_alg».proof.Proof.KernelPieces
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Value

open Cert.KernelIdeal Cert.KernelIdeal.Gen

variable {F : FTy → Type} [FloatOps F]
variable (m : (ℓ : Loc nD τ sig) → Buf (Elt F) ℓ)

theorem lt16 (n : ℕ) (h : n < 16) : n < cfg0.N := by rw [show cfg0.N = 16 from N_0]; exact h

/-- What point `n` leaves in the two output blocks, for any number `n` (point 0's past the grid, never used). -/
def outsTot (c : Dev nD) (n : ℕ) : Vec F S1x1x3072 .f32 × Vec F S1x1x1 .f32 :=
  if h : n < cfg0.N then outsAt0 m c n h else outsAt0 m c 0 (lt16 0 (by omega))

theorem outsTot_of_lt (c : Dev nD) (n : ℕ) (h : n < cfg0.N) : outsTot m c n = outsAt0 m c n h := dif_pos h

/-- The array of column sums: row `k` is what point `8k + 7` left. -/
def G1 (c : Dev nD) : S2x1x3072.Idx → Elt F .f32 :=
  fun i => (outsTot m c (8 * (i 0).val + 7)).1 (ix3 (n0 := 1) (n1 := 1) (n2 := 3072) 0 (i 1) (i 2))

/-- The array of fourth-power sums: entry `k` is what point `8k + 7` left. -/
def G2 (c : Dev nD) : S2x1x1.Idx → Elt F .f32 :=
  fun i => (outsTot m c (8 * (i 0).val + 7)).2 (ix3 (n0 := 1) (n1 := 1) (n2 := 1) 0 (i 1) (i 2))

/-- Point `t`'s block of either result array is block `⌊t/8⌋`; of `x`, row block `t`. -/
theorem idx_facts : ∀ t : Fin cfg0.N,
    win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_0.index t (0 : Fin 2) = t.val ∧ win0_0.index t (1 : Fin 2) = 0 :=
  (by decide +kernel : ∀ t : Fin grid0.N, _)

/-- What a write-back of the column sums writes is its block of `G1`. -/
theorem flushed1_eq (c : Dev nD) (t : Fin cfg0.N) (hf : (cfg0.win 1).flush t = true) :
    (dats m 0 c).flushed 1 t = ((cfg0.win 1).blk t).view.read (Elt F) (G1 m c) := by
  have h7 : t.val % 8 = 7 := (flush0_1 t).mp hf
  show (cfg0.win 1).cut (grid0.coords t) ((dats m 0 c).after 1 t) = _
  rw [after0_1]
  funext j
  show (outsAt0 m c t.val t.isLt).1 j = G1 m c (((cfg0.win 1).blk t).view.emb j)
  obtain ⟨e0, e1, e2, -, -, -, -, -⟩ := idx_facts t
  have hj0 : (j 0).val < 1 := (j 0).isLt
  have hj1 : (j 1).val < 1 := (j 1).isLt
  have k0 : ((((cfg0.win 1).blk t).view.emb j) 0).val = t.val / 8 := by
    show win0_1.index t (0 : Fin 3) * 1 + 1 * (j 0).val = _
    omega
  unfold G1
  rw [show 8 * ((((cfg0.win 1).blk t).view.emb j) 0).val + 7 = t.val by rw [k0]; omega, outsTot_of_lt m c t.val t.isLt]
  refine congrArg (outsAt0 m c t.val t.isLt).1 ?_
  funext a
  apply Fin.ext
  match a with
  | ⟨0, _⟩ => show (j 0).val = 0; omega
  | ⟨1, _⟩ => show (j 1).val = win0_1.index t (1 : Fin 3) * 1 + 1 * (j 1).val; omega
  | ⟨2, _⟩ => show (j 2).val = win0_1.index t (2 : Fin 3) * 3072 + 1 * (j 2).val; omega

/-- What a write-back of the fourth-power sums writes is its block of `G2`. -/
theorem flushed2_eq (c : Dev nD) (t : Fin cfg0.N) (hf : (cfg0.win 2).flush t = true) :
    (dats m 0 c).flushed 2 t = ((cfg0.win 2).blk t).view.read (Elt F) (G2 m c) := by
  have h7 : t.val % 8 = 7 := (flush0_2 t).mp hf
  show (cfg0.win 2).cut (grid0.coords t) ((dats m 0 c).after 2 t) = _
  rw [after0_2]
  funext j
  show (outsAt0 m c t.val t.isLt).2 j = G2 m c (((cfg0.win 2).blk t).view.emb j)
  obtain ⟨-, -, -, e0, e1, e2, -, -⟩ := idx_facts t
  have hj0 : (j 0).val < 1 := (j 0).isLt
  have hj1 : (j 1).val < 1 := (j 1).isLt
  have hj2 : (j 2).val < 1 := (j 2).isLt
  have k0 : ((((cfg0.win 2).blk t).view.emb j) 0).val = t.val / 8 := by
    show win0_2.index t (0 : Fin 3) * 1 + 1 * (j 0).val = _
    omega
  unfold G2
  rw [show 8 * ((((cfg0.win 2).blk t).view.emb j) 0).val + 7 = t.val by rw [k0]; omega, outsTot_of_lt m c t.val t.isLt]
  refine congrArg (outsAt0 m c t.val t.isLt).2 ?_
  funext a
  apply Fin.ext
  match a with
  | ⟨0, _⟩ => show (j 0).val = 0; omega
  | ⟨1, _⟩ => show (j 1).val = win0_2.index t (1 : Fin 3) * 1 + 1 * (j 1).val; omega
  | ⟨2, _⟩ => show (j 2).val = win0_2.index t (2 : Fin 3) * 1 + 1 * (j 2).val; omega

/-- An index of the column-sum array is in point `t`'s block iff each coordinate is in the block's range. -/
theorem mem_blk1 (t : Fin cfg0.N) (i : S2x1x3072.Idx) :
    i ∈ ((cfg0.win 1).blk t).view.set ↔ ∀ a : Fin 3, win0_1.index t a * S1x1x3072.size a ≤ (i a).val ∧ (i a).val < win0_1.index t a * S1x1x3072.size a + S1x1x3072.size a := by
  show i ∈ ((View.whole main_v0_0).slice (win0_1.rect t)).set ↔ _
  rw [View.set_slice_whole, Rect.mem_set_unit]
  exact Iff.rfl

/-- An index of the fourth-power array is in point `t`'s block iff each coordinate is in the block's range. -/
theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0_1).slice (win0_2.rect t)).set ↔ _
  rw [View.set_slice_whole, Rect.mem_set_unit]
  exact Iff.rfl

/-- Row `k` of the column-sum array is written back after point `8k + 7`. -/
theorem cover1 (i : S2x1x3072.Idx) :
    ∃ t : Fin cfg0.N, (cfg0.win 1).flush t = true ∧ i ∈ ((cfg0.win 1).blk t).view.set := by
  have h0 : (i 0).val < 2 := (i 0).isLt
  have h1 : (i 1).val < 1 := (i 1).isLt
  have h2 : (i 2).val < 3072 := (i 2).isLt
  refine ⟨⟨8 * (i 0).val + 7, lt16 _ (by omega)⟩, (flush0_1 _).mpr (by show (8 * (i 0).val + 7) % 8 = 7; omega), ?_⟩
  rw [mem_blk1]
  obtain ⟨e0, e1, e2, -, -, -, -, -⟩ := idx_facts ⟨8 * (i 0).val + 7, lt16 _ (by omega)⟩
  have e0' : win0_1.index ⟨8 * (i 0).val + 7, lt16 _ (by omega)⟩ (0 : Fin 3) = (8 * (i 0).val + 7) / 8 := e0
  intro a
  match a with
  | ⟨0, _⟩ => show win0_1.index _ (0 : Fin 3) * 1 ≤ (i 0).val ∧ (i 0).val < win0_1.index _ (0 : Fin 3) * 1 + 1; omega
  | ⟨1, _⟩ => show win0_1.index _ (1 : Fin 3) * 1 ≤ (i 1).val ∧ (i 1).val < win0_1.index _ (1 : Fin 3) * 1 + 1; omega
  | ⟨2, _⟩ => show win0_1.index _ (2 : Fin 3) * 3072 ≤ (i 2).val ∧ (i 2).val < win0_1.index _ (2 : Fin 3) * 3072 + 3072; omega

/-- Entry `k` of the fourth-power array is written back after point `8k + 7`. -/
theorem cover2 (i : S2x1x1.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  refine ⟨⟨8 * (i 0).val + 7, lt16 _ (by omega)⟩, (flush0_2 _).mpr (by show (8 * (i 0).val + 7) % 8 = 7; omega), ?_⟩
  rw [mem_blk2]
  obtain ⟨-, -, -, e0, e1, e2, -, -⟩ := idx_facts ⟨8 * (i 0).val + 7, lt16 _ (by omega)⟩
  have e0' : win0_2.index ⟨8 * (i 0).val + 7, lt16 _ (by omega)⟩ (0 : Fin 3) = (8 * (i 0).val + 7) / 8 := e0
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 1 ≤ (i 2).val ∧ (i 2).val < win0_2.index _ (2 : Fin 3) * 1 + 1; omega

/-- The column-sum array after the kernel. -/
theorem final1 (c : Dev nD) : (dats m 0 c).arrAt 1 cfg0.N = G1 m c :=
  (dats m 0 c).arrAt_eq_of_cover 1 (G1 m c) (flushed1_eq m c) cover1

/-- The fourth-power array after the kernel. -/
theorem final2 (c : Dev nD) : (dats m 0 c).arrAt 2 cfg0.N = G2 m c :=
  (dats m 0 c).arrAt_eq_of_cover 2 (G2 m c) (flushed2_eq m c) cover2

end Cert.KernelIdeal.Value

end
-- ==== Proof.KernelTail.lean ====
/-
  The kernel program's run, read: its result is the host lines after the kernel applied to the two result arrays
  the kernel leaves, and its argument ends unchanged.
-/
import proofs.«428474_j18674517803011_3_alg».proof.Proof.KernelFlush
import proofs.«428474_j18674517803011_3_alg».proof.Proof.KernelTerms
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Value

open Cert.KernelIdeal Cert.KernelIdeal.Gen Cert.KernelIdeal.Terms Idealize.ShloMosaic.StableHlo

variable {F : FTy → Type} [FloatOps F]
variable (m : (ℓ : Loc nD τ sig) → Buf (Elt F) ℓ) (ρ : Dev nD → PrngReg)

/-- The host lines after the kernel read the two result arrays where the kernel left them. -/
theorem arr1_eq (c : Dev nD) :
    Pipeline.withArrays (cfgs 0).spec c (V0 m c) (fun w => (dats m 0 c).arrAt w (cfgs 0).N) (Proc.devRef .tc main_v0_0) = G1 m c :=
  (Pipeline.withArrays_arr spec0 launch0.win.arr_inj c _ _ 1).trans (final1 m c)

theorem arr2_eq (c : Dev nD) :
    Pipeline.withArrays (cfgs 0).spec c (V0 m c) (fun w => (dats m 0 c).arrAt w (cfgs 0).N) (Proc.devRef .tc main_v0_1) = G2 m c :=
  (Pipeline.withArrays_arr spec0 launch0.win.arr_inj c _ _ 2).trans (final2 m c)

/-- The result buffer after the host lines: their term of the two result arrays. -/
theorem tail_eq (c : Dev nD) :
    Pipeline.afterTail₀ cfgs (dats m) 0 (V0 m) [hostOps1] c main_v7 = tailTerm (G1 m c) (G2 m c) := by
  unfold Pipeline.afterTail₀
  show StableHlo.after hostOps1 _ (Proc.devRef .tc main_v7) = _
  after_results
  rw [arr1_eq, arr2_eq]
  rfl

/-- Every weakly fair execution of the kernel program terminates with its result at the host lines' term of the
    two result arrays, the argument unchanged. -/
theorem run : θ_run defs (onTc (τ := τ) (main (F := F))) ⟨m, fun _ => 0, ρ⟩ fun r => ∀ c : Dev nD,
      r.2.mem ((c.tc : Thread nD τ).loc main_v7) = tailTerm (G1 m c) (G2 m c)
      ∧ r.2.mem ((c.tc : Thread nD τ).loc main_arg0) = m ((c.tc : Thread nD τ).loc main_arg0) :=
  (θ_run defs _ _).mono (fun r h c => ⟨((h c).2 main_v7 (by decide)).trans (tail_eq m c),
      ((h c).1 0).trans (((dats m 0 c).arrAt_in 0 rfl _).trans ((A_eq m c 0).trans (V_main_arg0 m c)))⟩)
    (run_main m ρ)

end Cert.KernelIdeal.Value

end
-- ==== Proof.Algebra.lean ====
/-
  The two closed forms agree on finite arrays, and the sixteen row blocks are the rows.
-/
import proofs.«428474_j18674517803011_3_alg».proof.Proof.Spec

noncomputable section

namespace Cert.OrthReg

open Idealize.ShloMosaic
open scoped BigOperators

/-- A sum over `m` blocks of `n` consecutive indices each is the sum over all `m * n` indices: the pair
    `(a, b)` names index `n * a + b`, and every index below `m * n` is named exactly once. -/
theorem alg_sum_blocks {M : Type*} [AddCommMonoid M] {m n N : ℕ} (hN : m * n = N) (f : Fin N → M)
    (e : Fin m → Fin n → Fin N) (he : ∀ a b, (e a b).val = n * a.val + b.val) :
    ∑ a : Fin m, ∑ b : Fin n, f (e a b) = ∑ x : Fin N, f x := by
  subst hN
  rw [← Fintype.sum_prod_type']
  refine Fintype.sum_equiv finProdFinEquiv _ _ (fun x => ?_)
  congr 1
  apply Fin.ext
  rw [he]
  simp only [finProdFinEquiv, Equiv.coe_fn_mk]
  omega

/-- Summing over the two partial results and the eight blocks of each is summing over the sixteen blocks. -/
theorem sum_pts {M : Type*} [AddCommMonoid M] (g : Fin 16 → M) :
    ∑ c : Fin 2, ∑ i : Fin 8, g (pt c i) = ∑ t : Fin 16, g t :=
  alg_sum_blocks (by norm_num) g pt (fun _ _ => rfl)

/-- Summing over the sixteen blocks and the 256 rows of each is summing over the rows. -/
theorem sum_blockRows {M : Type*} [AddCommMonoid M] (f : Fin 4096 → M) :
    ∑ t : Fin 16, ∑ r : Fin 256, f (blockRow t r) = ∑ row : Fin 4096, f row :=
  alg_sum_blocks (by norm_num) f blockRow (fun _ _ => rfl)

/-- The coercion of the reals into the extended reals carries finite sums to finite sums. -/
theorem alg_coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The printed divisor is the real number 3072 = 1.5 · 2¹¹. -/
theorem alg_dLit_eq : dLit = ((3072 : ℝ) : EReal) := by
  simp [dLit, Ideal.ofBits, Ideal.ieee, -EReal.coe_mul]; norm_num

/-- The identity over the reals: for `y : ι → κ → ℝ` and a factor `c`, the squared column sums less the sum of
    squares, times `c`, is the sum of all entries of the scaled Gram matrix `(∑_d y_id y_jd) c` less its
    diagonal.  It is `(∑ᵢ y_id)² = ∑ᵢ ∑ⱼ y_id y_jd` summed over `d`, with the order of summation changed. -/
theorem alg_real_gram_identity {ι κ : Type*} [Fintype ι] [Fintype κ] (y : ι → κ → ℝ) (c : ℝ) :
    ((∑ d, (∑ i, y i d) * (∑ i, y i d)) - ∑ i, ∑ d, y i d * y i d) * c
      = (∑ i, ∑ j, (∑ d, y i d * y j d) * c) - ∑ i, (∑ d, y i d * y i d) * c := by
  have h : ∑ d, (∑ i, y i d) * (∑ i, y i d) = ∑ i, ∑ j, ∑ d, y i d * y j d := by
    simp_rw [Finset.sum_mul_sum]
    rw [Finset.sum_comm]
    exact Finset.sum_congr rfl (fun i _ => Finset.sum_comm)
  rw [h, sub_mul, Finset.sum_mul, Finset.sum_mul]
  simp_rw [Finset.sum_mul]

/-- On an array of real numbers the kernel's number is the reference's. -/
theorem kForm_eq_rForm (X : Mat) (hfin : ∀ i d, ∃ r : ℝ, X i d = (r : EReal)) : kForm X = rForm X := by
  choose x hx using hfin
  have hsq : ∀ i d, sq X i d = ((x i d * x i d : ℝ) : EReal) := fun i d => by
    rw [sq, hx, ← EReal.coe_mul]
  have hc : (3072 : ℝ) ≠ 0 := by norm_num
  have hk : kForm X = (((((∑ d, (∑ i, x i d * x i d) * (∑ i, x i d * x i d))
      - ∑ i, ∑ d, (x i d * x i d) * (x i d * x i d)) * (1 / 3072 : ℝ) : ℝ)) : EReal) := by
    unfold kForm colSum
    rw [alg_dLit_eq, Ideal.div_coe hc]
    simp only [hsq, alg_coe_sum, ← EReal.coe_mul, ← EReal.coe_sub]
  have hg : ∀ i j, gram X i j = (((∑ d, (x i d * x i d) * (x j d * x j d)) * (1 / 3072 : ℝ) : ℝ) : EReal) :=
    fun i j => by
      unfold gram
      rw [alg_dLit_eq, Ideal.div_coe hc]
      simp only [hsq, alg_coe_sum, ← EReal.coe_mul]
  have hr : rForm X = (((∑ i, ∑ j, (∑ d, (x i d * x i d) * (x j d * x j d)) * (1 / 3072 : ℝ))
      - ∑ i, (∑ d, (x i d * x i d) * (x i d * x i d)) * (1 / 3072 : ℝ) : ℝ) : EReal) := by
    unfold rForm
    simp only [Finset.sum_ite_eq, Finset.mem_univ, if_true, hg, alg_coe_sum, ← EReal.coe_sub]
  rw [hk, hr, alg_real_gram_identity (fun i d => x i d * x i d)]

end Cert.OrthReg

end
-- ==== Proof.KernelValue.lean ====
/-
  The kernel program's result over the extended reals.  Row `k` of the column-sum array is, column by column, the
  sum over the eight blocks of core `k` and the 256 rows of each of the squares in that column; entry `k` of the
  fourth-power array the sum over the same rows of the row's fourth powers.  Adding the two cores' results sums over
  all 4096 rows, so the host lines after the kernel compute the kernel's closed form.
-/
import proofs.«428474_j18674517803011_3_alg».proof.Proof.KernelChain
import proofs.«428474_j18674517803011_3_alg».proof.Proof.KernelTail
import proofs.«428474_j18674517803011_3_alg».proof.Proof.Algebra

noncomputable section

open Idealize.ShloMosaic Idealize.ShloMosaic.TcCoe Idealize.SL.Sem Idealize.ShloMosaic.ValueIdx
open Idealize.ShloMosaic.Pipeline (Dat)
open scoped BigOperators

namespace Cert.KernelIdeal.Value

open Cert.KernelIdeal Cert.KernelIdeal.Gen Cert.KernelIdeal.Terms Cert.KernelIdeal.Read Cert.OrthReg

variable (m : (ℓ : Loc nD τ sig) → Buf (Elt Ideal) ℓ) (ρ : Dev nD → PrngReg)

/-- The argument array by row and column. -/
abbrev argMat (c : Dev nD) : Mat := fun i d => m ((c.tc : Thread nD τ).loc main_arg0) (ix2 i d)

/-- Entry `(r, d)` of the block point `t` reads is entry `(256 t + r, d)` of the argument. -/
theorem xblk_apply (c : Dev nD) (t : Fin 16) (r : Fin 256) (d : Fin 3072) :
    xblk m c ⟨t.val, lt16 _ t.isLt⟩ (ix2 r d) = argMat m c (blockRow t r) d := by
  obtain ⟨-, -, -, -, -, -, e0, e1⟩ := idx_facts ⟨t.val, lt16 _ t.isLt⟩
  have e0' : win0_0.index ⟨t.val, lt16 _ t.isLt⟩ (0 : Fin 2) = t.val := e0
  show V m c main_arg0 (((cfg0.win 0).blk ⟨t.val, lt16 _ t.isLt⟩).view.emb (ix2 r d)) = _
  show m ((c.tc : Thread nD τ).loc main_arg0) (((cfg0.win 0).blk ⟨t.val, lt16 _ t.isLt⟩).view.emb (ix2 r d))
    = m ((c.tc : Thread nD τ).loc main_arg0) (ix2 (blockRow t r) d)
  refine congrArg (m ((c.tc : Thread nD τ).loc main_arg0)) ?_
  funext a
  apply Fin.ext
  match a with
  | ⟨0, _⟩ => show win0_0.index ⟨t.val, lt16 _ t.isLt⟩ (0 : Fin 2) * 256 + 1 * r.val = 256 * t.val + r.val; omega
  | ⟨1, _⟩ => show win0_0.index ⟨t.val, lt16 _ t.isLt⟩ (1 : Fin 2) * 3072 + 1 * d.val = d.val; omega

theorem G1_apply (c : Dev nD) (k : Fin 2) (d : Fin 3072) :
    G1 m c (ix3 k 0 d) = (outsTot m c (8 * k.val + 7)).1 (ix3 0 0 d) := rfl

theorem G2_apply (c : Dev nD) (k : Fin 2) :
    G2 m c (ix3 k 0 0) = (outsTot m c (8 * k.val + 7)).2 (ix3 0 0 0) := rfl

/-- The block that core `k` reads at its `i`-th point. -/
theorem blkAt_pt (c : Dev nD) (k : Fin 2) (i : Fin 8) :
    blkAt m c (8 * k.val + i.val) = xblk m c ⟨(pt k i).val, lt16 _ (pt k i).isLt⟩ :=
  blkAt_of_lt m c _ _

/-- Row `k` of the column-sum array, at column `d`: the squares in that column over core `k`'s 2048 rows. -/
theorem G1_eq (c : Dev nD) (k : Fin 2) (d : Fin 3072) :
    G1 m c (ix3 k 0 d) = ∑ i : Fin 8, ∑ r : Fin 256, sq (argMat m c) (blockRow (pt k i) r) d := by
  have hk : k.val < 2 := k.isLt
  rw [G1_apply, outsTot_of_lt m c _ (lt16 _ (by omega)), acc1_eq,
    show (8 * k.val + 7) % 8 + 1 = 8 by omega, show 8 * ((8 * k.val + 7) / 8) = 8 * k.val by omega,
    Finset.sum_range (fun j => rowsq (blkAt m c (8 * k.val + j)) d)]
  refine Finset.sum_congr rfl fun i _ => ?_
  rw [blkAt_pt]
  unfold rowsq
  refine Finset.sum_congr rfl fun r _ => ?_
  rw [xblk_apply]
  rfl

/-- Entry `k` of the fourth-power array: the fourth powers over core `k`'s 2048 rows. -/
theorem G2_eq (c : Dev nD) (k : Fin 2) :
    G2 m c (ix3 k 0 0)
      = ∑ i : Fin 8, ∑ r : Fin 256, ∑ d : Fin 3072,
          sq (argMat m c) (blockRow (pt k i) r) d * sq (argMat m c) (blockRow (pt k i) r) d := by
  have hk : k.val < 2 := k.isLt
  rw [G2_apply, outsTot_of_lt m c _ (lt16 _ (by omega)), acc2_eq,
    show (8 * k.val + 7) % 8 + 1 = 8 by omega, show 8 * ((8 * k.val + 7) / 8) = 8 * k.val by omega,
    Finset.sum_range (fun j => quart (blkAt m c (8 * k.val + j)))]
  refine Finset.sum_congr rfl fun i _ => ?_
  rw [blkAt_pt]
  unfold quart
  refine Finset.sum_congr rfl fun r _ => Finset.sum_congr rfl fun d _ => ?_
  rw [xblk_apply]
  rfl

/-- The two cores' column sums added are the column's sum of squares over all rows. -/
theorem colSum_eq (c : Dev nD) (d : Fin 3072) : ∑ k : Fin 2, G1 m c (ix3 k 0 d) = colSum (argMat m c) d := by
  simp only [G1_eq]
  rw [sum_pts (fun t => ∑ r : Fin 256, sq (argMat m c) (blockRow t r) d),
    sum_blockRows (fun row => sq (argMat m c) row d)]
  rfl

/-- The two cores' fourth-power sums added are the sum of all fourth powers. -/
theorem quartSum_eq (c : Dev nD) :
    ∑ k : Fin 2, G2 m c (ix3 k 0 0) = ∑ i : Fin 4096, ∑ d : Fin 3072, sq (argMat m c) i d * sq (argMat m c) i d := by
  simp only [G2_eq]
  rw [sum_pts (fun t => ∑ r : Fin 256, ∑ d : Fin 3072, sq (argMat m c) (blockRow t r) d * sq (argMat m c) (blockRow t r) d),
    sum_blockRows (fun row => ∑ d : Fin 3072, sq (argMat m c) row d * sq (argMat m c) row d)]

/-- The host lines after the kernel, on the two result arrays, give the kernel's closed form of the argument. -/
theorem result_eq (c : Dev nD) : tailTerm (G1 m c) (G2 m c) = fun _ => kForm (argMat m c) := by
  rw [tailTerm_apply]
  funext _
  unfold kForm
  refine congrArg (fun z => Ideal.div z dLit) ?_
  refine congrArg₂ (· - ·) (Finset.sum_congr rfl fun d _ => ?_) (quartSum_eq m c)
  rw [colSum_eq]

/-- Every weakly fair execution of the kernel program terminates with its result at the kernel's closed form of the
    argument, the argument unchanged. -/
theorem run_ideal : θ_run (defs (F := Ideal)) (onTc (τ := τ) (main (F := Ideal))) ⟨m, fun _ => 0, ρ⟩ fun r => ∀ c : Dev nD,
      r.2.mem ((c.tc : Thread nD τ).loc main_v7) = (fun _ => kForm (fun i d => m ((c.tc : Thread nD τ).loc main_arg0) (ix2 i d)))
      ∧ r.2.mem ((c.tc : Thread nD τ).loc main_arg0) = m ((c.tc : Thread nD τ).loc main_arg0) :=
  (θ_run defs _ _).mono (fun r h c => ⟨(h c).1.trans (result_eq m c), (h c).2⟩) (run (F := Ideal) m ρ)

end Cert.KernelIdeal.Value

end
-- ==== Proof.RefValue.lean ====
/-
  The reference's run, and its result read over the extended reals: the sum of the Gram matrix of the squares
  divided by 3072, less the sum of its diagonal (the entries where the row and column numbers agree).
-/
import proofs.«428474_j18674517803011_3_alg».proof.Proof.Gen.ReferenceIdeal
import proofs.«428474_j18674517803011_3_alg».proof.Proof.Spec
import Idealize.ShloMosaic.Lib.StableHlo.Run
import Idealize.ShloMosaic.PureOps.Ideal.Laws
import Idealize.ShloMosaic.Lib.ValueIdx
import Idealize.ShloMosaic.Lib.IdealHost
import Idealize.ShloMosaic.Lib.StackMember
import Idealize.ShloMosaic.Lib.StableHlo.Predicate

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen

section Run

variable {F : FTy → Type} [FloatOps F]

/-- The reference's twenty operations in order, the two calls unfolded at their sites. -/
abbrev ops : List (HloOp τ sig (Elt F)) :=
  [ binary main_arg0 main_arg0 main_v0 (mulf : (⟨S4096x3072, .f32⟩ : BufTy).Contents (Elt F) → (⟨S4096x3072, .f32⟩ : BufTy).Contents (Elt F) → (⟨S4096x3072, .f32⟩ : BufTy).Contents (Elt F)),
    unary main_v0 main_v1 ((transpose S3072x4096 [1, 0] · transposes_S4096x3072_S3072x4096_1_0) : (⟨S4096x3072, .f32⟩ : BufTy).Contents (Elt F) → (⟨S3072x4096, .f32⟩ : BufTy).Contents (Elt F)),
    binary main_v0 main_v1 main_v2 ((fun l r => Host.dotGeneral dot_S4096x3072_S3072x4096_S4096x4096_1_0_0_1_n_n none l r) : (⟨S4096x3072, .f32⟩ : BufTy).Contents (Elt F) → (⟨S3072x4096, .f32⟩ : BufTy).Contents (Elt F) → (⟨S4096x4096, .f32⟩ : BufTy).Contents (Elt F)),
    nullary main_cst (constant S_ .f32 0x45400000#32),
    unary main_cst main_v3 (broadcastInDim S4096x4096 ![] bcast_S_S4096x4096 : (⟨S_, .f32⟩ : BufTy).Contents (Elt F) → (⟨S4096x4096, .f32⟩ : BufTy).Contents (Elt F)),
    binary main_v2 main_v3 main_v4 (Host.divf : (⟨S4096x4096, .f32⟩ : BufTy).Contents (Elt F) → (⟨S4096x4096, .f32⟩ : BufTy).Contents (Elt F) → (⟨S4096x4096, .f32⟩ : BufTy).Contents (Elt F)),
    nullary main_cst_0 (constant S_ .f32 0x00000000#32),
    binary main_v4 main_cst_0 main_v5 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    TRef.nullary main_call0.v0 (iotaInDim S4096x4096 32 0),
    TRef.nullary main_call0.v1 (iotaInDim S4096x4096 32 1),
    TRef.nullary main_call0.c (constantI S_ 32 0#32),
    TRef.unary main_call0.c main_call0.v2 (broadcastInDim S4096x4096 ![] bcast_S_S4096x4096),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4096x4096 ![] bcast_S_S4096x4096),
    TRef.ternary main_call0.v4 (.of main_v4) main_call0.v5 main_call0.call0.v0 select,
    TRef.nullary main_call0.cst_0 (constant S_ .f32 0x00000000#32),
    TRef.binary main_call0.call0.v0 main_call0.cst_0 main_call0.v7 (fun x v => Host.reduceAdd x v reducesTo_S4096x4096_S_d0_1 h_S_),
    binary main_v5 main_v6 main_v7 (subf : (⟨S_, .f32⟩ : BufTy).Contents (Elt F) → (⟨S_, .f32⟩ : BufTy).Contents (Elt F) → (⟨S_, .f32⟩ : BufTy).Contents (Elt F)) ]

set_option maxRecDepth 1024 in
/-- @main is that straight line: the two functions' bodies unfolded at their calls. -/
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., nullary_bufs_sub .., unary_bufs_sub .., binary_bufs_sub ..,
    nullary_bufs_sub .., binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub ..,
    binary_bufs_sub ..⟩

/-- The Gram matrix of the squares divided by the broadcast divisor: the reference's `%4`. -/
def gramTerm (X : FVec F S4096x3072 .f32) : FVec F S4096x4096 .f32 :=
  Host.divf
    (Host.dotGeneral dot_S4096x3072_S3072x4096_S4096x4096_1_0_0_1_n_n none (mulf X X)
      (transpose S3072x4096 [1, 0] (mulf X X) transposes_S4096x3072_S3072x4096_1_0))
    (broadcastInDim S4096x4096 ![] bcast_S_S4096x4096 (constant S_ .f32 0x45400000#32))

/-- Where the row number equals the column number: the reference's `%4` of @trace. -/
def diagMask : IVec S4096x4096 1 :=
  cmpi .eq (addi (iotaInDim S4096x4096 32 0) (broadcastInDim S4096x4096 ![] bcast_S_S4096x4096 (constantI S_ 32 0#32)))
    (iotaInDim S4096x4096 32 1)

/-- The reference's result as one term of the argument: the sum of all entries of the Gram matrix less the sum of
    the entries the mask keeps. -/
def refTerm (X : FVec F S4096x3072 .f32) : FVec F S_ .f32 :=
  subf
    (Host.reduceAdd (gramTerm X) (constant S_ .f32 0x00000000#32) reducesTo_S4096x4096_S_d0_1 h_S_)
    (Host.reduceAdd
      (select diagMask (gramTerm X)
        (broadcastInDim S4096x4096 ![] bcast_S_S4096x4096 (constant S_ .f32 0x00000000#32)))
      (constant S_ .f32 0x00000000#32) reducesTo_S4096x4096_S_d0_1 h_S_)

attribute [local irreducible] Host.reduceAdd Host.divf transpose in
/-- The fold of the operations at the result buffer is that term of the argument's contents. -/
theorem out_eq (V : Valuation τ sig (Elt F)) :
    after ops V (main_v7 : DevRef τ sig) = refTerm (V (main_arg0 : DevRef τ sig)) := by
  simp only [after_cons, after_nil]
  rfl

/-- No operation writes the argument. -/
theorem arg0_eq (V : Valuation τ sig (Elt F)) :
    after ops V (main_arg0 : DevRef τ sig) = V (main_arg0 : DevRef τ sig) := by
  simp only [after_cons, after_nil]
  rfl

/-- For any float values, from any memory with zero counters: every weakly fair execution of @main terminates with
    the result at that term of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (out_eq _), (h c main_arg0).trans (arg0_eq _)⟩)
    (run_seq scopedRefs_eq scopedSems_eq defs main (fun _ => ops) main_eq (fun _ => ops_sub) m ρ)

end Run

section Value

open scoped BigOperators
open Cert.OrthReg

/-- The argument as an array by row and column. -/
abbrev asMat (X : FVec Ideal S4096x3072 .f32) : Mat := fun i d => X (ix2 i d)

/-- The reference's contraction record is the plain product of a 4096×3072 by a 3072×4096 matrix. -/
theorem dot_eq_plain : dot_S4096x3072_S3072x4096_S4096x4096_1_0_0_1_n_n = DotDims.plain 4096 3072 4096 := rfl

/-- The transposed squares at (d, j) are the squares at (j, d). -/
theorem transpose_sq_apply (X : FVec Ideal S4096x3072 .f32) (d : Fin 3072) (j : Fin 4096) :
    transpose S3072x4096 [1, 0] (mulf X X) transposes_S4096x3072_S3072x4096_1_0 (ix2 d j) = X (ix2 j d) * X (ix2 j d) := by
  rw [transpose_apply [1, 0] (mulf X X) transposes_S4096x3072_S3072x4096_1_0 (ix2 d j) (ix2 j d)
    (fun b => match b with | ⟨0, _⟩ => rfl | ⟨1, _⟩ => rfl)]
  rfl

/-- Entry (i, j) of the reference's `%4` is entry (i, j) of the Gram matrix of the squares, divided by 3072. -/
theorem gramTerm_apply (X : FVec Ideal S4096x3072 .f32) (i j : Fin 4096) :
    gramTerm (F := Ideal) X (ix2 i j) = gram (asMat X) i j := by
  unfold gramTerm gram
  rw [hostDivf_apply, broadcastInDim_scalar_apply, constant_apply, dot_eq_plain,
    StackMember.dotGeneral_plain_apply]
  refine congrArg (fun s => Ideal.div s dLit) (Finset.sum_congr rfl fun d _ => ?_)
  rw [transpose_sq_apply, mulf_apply]
  rfl

/-- The mask is set at (i, j) exactly when the row number is the column number: both are below 2³², so their words
    are equal only if they are, and adding the zero word changes nothing. -/
theorem diagMask_apply (i j : Fin 4096) : diagMask (ix2 i j) = 1#1 ↔ i = j := by
  show IntOp.cmpi .eq (IntOp.addi (BitVec.ofNat 32 i.val) 0#32) (BitVec.ofNat 32 j.val) = 1#1 ↔ i = j
  rw [Predicate.cmpi_eq_iff]
  unfold IntOp.addi
  constructor
  · intro h
    have h' := congrArg BitVec.toNat h
    simp only [BitVec.toNat_add, BitVec.toNat_ofNat] at h'
    apply Fin.ext
    have := i.isLt; have := j.isLt
    omega
  · intro h
    rw [h, BitVec.add_zero]

/-- Selecting by the mask keeps the first array on the diagonal and the second off it. -/
theorem select_diag_apply (a b : FVec Ideal S4096x4096 .f32) (i j : Fin 4096) :
    select diagMask a b (ix2 i j) = if i = j then a (ix2 i j) else b (ix2 i j) := by
  rw [select_apply]
  by_cases h : i = j
  · rw [if_pos h, (diagMask_apply i j).mpr h, select_one]
  · rw [if_neg h, eq_zero_of_ne_one (fun e => h ((diagMask_apply i j).mp e)), select_zero]

/-- The reference's term over the extended reals is its closed form: each reduction is the zero word's value, zero,
    plus the sum over all entries, entry by entry the Gram matrix, on the second sum kept on the diagonal and replaced
    by zero off it. -/
theorem refTerm_ideal (X : FVec Ideal S4096x3072 .f32) :
    refTerm (F := Ideal) X = fun _ => rForm (asMat X) := by
  funext p
  unfold refTerm
  rw [subf_apply, hostReduceAdd_apply, hostReduceAdd_apply,
    Ideal.hostReduceAdd_total _ (fun b => b.elim0), Ideal.hostReduceAdd_total _ (fun b => b.elim0),
    constant_apply, Ideal.ofBits_zero_f32, zero_add, zero_add, sum_idx2, sum_idx2]
  unfold rForm
  refine congrArg₂ (· - ·) ?_ ?_
  · exact Finset.sum_congr rfl fun i _ => Finset.sum_congr rfl fun j _ => gramTerm_apply X i j
  · refine Finset.sum_congr rfl fun i _ => Finset.sum_congr rfl fun j _ => ?_
    rw [select_diag_apply, gramTerm_apply, broadcastInDim_scalar_apply, constant_apply, Ideal.ofBits_zero_f32]

end Value

/-- Every weakly fair execution of the reference terminates with its result at the reference's closed form of the
    argument, the argument unchanged. -/
theorem run_ideal (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
          = (fun _ => Cert.OrthReg.rForm (fun i d => m ((c.tc : Thread nD τ).loc main_arg0) (ix2 i d)))
      ∧ r.2.mem ((c.tc : Thread nD τ).loc main_arg0) = m ((c.tc : Thread nD τ).loc main_arg0) :=
  (θ_run _ _ _).mono (fun _ h c => ⟨(h c).1.trans (refTerm_ideal _), (h c).2⟩) (run m ρ)

end Cert.ReferenceIdeal.RefValue

end
-- ==== Proof.Finite.lean ====
/-
  The precondition read: every entry of the argument is a real number.
-/
import proofs.«428474_j18674517803011_3_alg».proof.Proof.Gen.Pre_finite_inputs
import Idealize.ShloMosaic.PureOps.Ideal
import Idealize.ShloMosaic.Lib.ValueIdx
import Idealize.ShloMosaic.Lib.ReduceAll

noncomputable section

namespace Cert.OrthReg

open Idealize.ShloMosaic Cert.Pre_finite_inputs Cert.Pre_finite_inputs.Gen

/-- The f32 word `0x7F800000` (sign clear, exponent all ones, fraction zero) denotes `+∞`. -/
theorem fin_posInf_eq_top : Ideal.ofBits .f32 0x7F800000#32 = (⊤ : EReal) := by
  simp [Ideal.ofBits, Ideal.ieee]

/-- The one-bit word of a truth value is 1 exactly when the value is true. -/
theorem fin_ofBool_eq_one {b : Bool} : BitVec.ofBool b = 1#1 ↔ b = true := by cases b <;> decide

/-- An extended real whose absolute value `max v (-v)` lies below `+∞` is a real number: `v < ⊤` rules out
    `⊤`, and `-v < ⊤` rules out `⊥`, whose negative is `⊤`. -/
theorem fin_real_of_abs_lt_top (v : EReal) (hv : max v (-v) < ⊤) : ∃ r : ℝ, v = (r : EReal) := by
  obtain ⟨h1, h2⟩ := max_lt_iff.1 hv
  have hne_top : v ≠ ⊤ := ne_of_lt h1
  have hne_bot : v ≠ ⊥ := by
    rintro rfl
    rw [EReal.neg_bot] at h2
    exact lt_irrefl _ h2
  exact ⟨v.toReal, (EReal.coe_toReal hne_top hne_bot).symm⟩

/-- If the printed predicate is all ones on `x`, every entry of `x` is a real number. -/
theorem finite_of_pre (x : FVec Ideal S4096x3072 .f32) (h : Cert.Pre_finite_inputs.fn (F := Ideal) x = fun _ => 1#1) :
    ∀ i, ∃ r : ℝ, x i = (r : EReal) := by
  intro i
  -- the shape of rank zero has exactly one index: the function out of the empty set of axes
  haveI : Subsingleton S_.Idx := ⟨fun _ _ => funext fun d => d.elim0⟩
  -- the predicate's one result, the conjunction over both axes of the entrywise comparisons, is 1
  have h0 := congrFun h ValueIdx.ix0
  dsimp only [Cert.Pre_finite_inputs.fn] at h0
  -- so the comparison at entry `i` is 1: `|x i| < +∞`
  have hi : Ideal.cmp .olt (max (x i) (-(x i))) (Ideal.ofBits .f32 0x7F800000#32) = 1#1 :=
    Host.reduce_andi_all _ _ _ _ _ h0 i
  rw [fin_posInf_eq_top, Ideal.cmp, fin_ofBool_eq_one, decide_eq_true_eq] at hi
  exact fin_real_of_abs_lt_top (x i) hi

end Cert.OrthReg

end
-- ==== Proof.lean ====
/-
  The kernel and its reference compute one number of a finite array `x` of 4096 rows and 3072 columns.  With
  `y = x²`, the reference sums the off-diagonal entries of the Gram matrix `y yᵀ / 3072`; the kernel streams the
  rows once, in sixteen blocks of 256 over two cores, keeps per core the column sums of `y` and the sum of `y²`, and
  the host lines after it add the two cores' results and return `(∑_d (∑ᵢ y_id)² − ∑ᵢ∑_d y_id²) / 3072`.  Over the
  extended reals the kernel's result is that closed form for every array (Proof/KernelValue.lean), the reference's is
  its own (Proof/RefValue.lean), and the two agree when every entry is a real number (Proof/Algebra.lean:
  `(∑ᵢ y_id)² = ∑ᵢ∑ⱼ y_id y_jd`, which needs the distributive law and so finiteness); the precondition says exactly
  that (Proof/Finite.lean).  The idealization rewrote nothing, so `preserves` is trivial; the kernel's two frames are
  the generated ones, the reference's is its run with the result dropped.
-/
import proofs.«428474_j18674517803011_3_alg».proof.Defs
import proofs.«428474_j18674517803011_3_alg».proof.Proof.Gen.Kernel.Frame
import proofs.«428474_j18674517803011_3_alg».proof.Proof.Gen.KernelIdeal.Frame
import proofs.«428474_j18674517803011_3_alg».proof.Proof.Gen.ReferenceIdeal
import proofs.«428474_j18674517803011_3_alg».proof.Proof.Gen.Pre_finite_inputs
import proofs.«428474_j18674517803011_3_alg».proof.Proof.KernelValue
import proofs.«428474_j18674517803011_3_alg».proof.Proof.RefValue
import proofs.«428474_j18674517803011_3_alg».proof.Proof.Finite
import proofs.«428474_j18674517803011_3_alg».proof.Proof.Algebra
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RefValue.run_ideal m ρ)

theorem preserves : Cert.preserves_Kernel_KernelIdeal := trivial

/-- Both programs end at their closed forms of arguments that agree, and on an array of real numbers the two
    closed forms are one number. -/
theorem algebraic : Cert.algebraic_KernelIdeal_ReferenceIdeal := by
  intro m ρ m' ρ' hpre hagree
  refine ⟨_, Cert.KernelIdeal.Value.run_ideal m ρ, ?_⟩
  refine (θ_run Cert.ReferenceIdeal.defs _ _).mono (fun _ h c => ⟨(h c).1.trans ?_, (h c).2⟩)
    (Cert.ReferenceIdeal.RefValue.run_ideal m' ρ')
  rw [hagree c]
  funext _
  exact (Cert.OrthReg.kForm_eq_rForm _ (fun i d => Cert.OrthReg.finite_of_pre _ (hpre c) (ix2 i d))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
